-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x256 : Shape := ⟨2, ![128, 256]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S10000x10000 .f32) (main_arg1 : FVec F S10000x128 .f32) (main_arg2 : FVec F S128x256 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S10000x10000 : Shape := ⟨2, ![10000, 10000]⟩
abbrev S10000x128 : Shape := ⟨2, ![10000, 128]⟩
abbrev S128x256 : Shape := ⟨2, ![128, 256]⟩
abbrev S256x128 : Shape := ⟨2, ![256, 128]⟩
abbrev S200x10000 : Shape := ⟨2, ![200, 10000]⟩
abbrev S200x128 : Shape := ⟨2, ![200, 128]⟩
abbrev S200 : Shape := ⟨1, ![200]⟩
abbrev S200x1 : Shape := ⟨2, ![200, 1]⟩
abbrev S128x128 : Shape := ⟨2, ![128, 128]⟩

abbrev nBuf : Space → Nat
  | .hbm => 5
  | .vmem => 8
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x256, .f32⟩
  | .hbm, ⟨3, _⟩ => ⟨S256x128, .f32⟩
  | .hbm, ⟨4, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S200x128, .f32⟩
  | .local _ .vmem, ⟨4, _⟩ => ⟨S200x128, .f32⟩
  | .local _ .vmem, ⟨5, _⟩ => ⟨S256x128, .f32⟩
  | .local _ .vmem, ⟨6, _⟩ => ⟨S200x128, .f32⟩
  | .local _ .vmem, ⟨7, _⟩ => ⟨S200x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x256_S256x128_1_0 : S128x256.Transposes [1, 0] S256x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  reduces_S200x10000_S200 : S200x10000.Reduces [1] S200
  shapeCasts_S200_S200x1 : S200.ShapeCasts S200x1
  broadcasts_S200x1_S200x128 : S200x1.Broadcasts S200x128
  inb_S200x128_S200x128_0_0 : ∀ a, (![0, 0] : Fin 2 → Nat) a + S200x128.size a ≤ S200x128.size a
  h_S200x128 : 0 < S200x128.numel
  inb_S256x128_S128x128_0_0 : ∀ a, (![0, 0] : Fin 2 → Nat) a + S128x128.size a ≤ S256x128.size a
  h_S128x128 : 0 < S128x128.numel
  shapeCasts_S128x128_S128x128 : S128x128.ShapeCasts S128x128
  inb_S256x128_S128x128_128_0 : ∀ a, (![128, 0] : Fin 2 → Nat) a + S128x128.size a ≤ S256x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x128.size a ≤ S10000x128.size a
  hwx0_2 : ∀ i : grid0.Coords, EltTy.bits .f32 = 32 ∨ (Rect.block (s := S10000x128) S200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x256 : Shape := ⟨2, ![128, 256]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S256x128 : Shape := ⟨2, ![256, 128]⟩

abbrev nBuf : Space → Nat
  | .hbm => 15
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x256, .f32⟩
  | .hbm, ⟨3, _⟩ => ⟨S10000x128, .f32⟩
  | .hbm, ⟨4, _⟩ => ⟨S_, .f32⟩
  | .hbm, ⟨5, _⟩ => ⟨S10000, .f32⟩
  | .hbm, ⟨6, _⟩ => ⟨S10000x1, .f32⟩
  | .hbm, ⟨7, _⟩ => ⟨S_, .f32⟩
  | .hbm, ⟨8, _⟩ => ⟨S10000x1, .f32⟩
  | .hbm, ⟨9, _⟩ => ⟨S10000x1, .f32⟩
  | .hbm, ⟨10, _⟩ => ⟨S10000x128, .f32⟩
  | .hbm, ⟨11, _⟩ => ⟨S10000x128, .f32⟩
  | .hbm, ⟨12, _⟩ => ⟨S10000x256, .f32⟩
  | .hbm, ⟨13, _⟩ => ⟨S256x128, .f32⟩
  | .hbm, ⟨14, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  shapeCasts_S10000_S10000x1 : S10000.ShapeCasts S10000x1
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.IdealFrame.lean ====
/-
  The frame of the fused GraphSAGE kernel: one pallas_call on a grid of 50 points, each point staging a
  200-row block of the adjacency matrix (window 0), the whole feature matrix (window 1), the matching
  200-row block of the feature matrix (window 2), the whole transposed weight matrix (window 3), and writing
  back a 200-row block of the result (window 4). Windows 1 and 2 read ONE array, the feature matrix: the
  launch deals that array's full share to the two windows as its two halves, which is all an input window
  needs (the pipeline only reads it). The body loads its four input blocks, computes, and stores the whole
  output block, so what it leaves there is one payload of the input blocks (`out0_4`), and every input
  buffer holds its window's block at every point, fetched there or not.

  Stated for any float instance `F`: the run (`run_main`) ends with every windowed array at what the
  pipeline library computes from these data and the one array no window stages (the weight matrix as
  launched) unchanged; the frame claim's post follows (`frame`).
-/
import proofs.«126180_g154618823108_cont_week2b_1163_4_alg».proof.Proof.Gen.KernelIdeal.Launch
import proofs.«126180_g154618823108_cont_week2b_1163_4_alg».proof.Proof.Gen.KernelIdeal.Skeleton
import proofs.«126180_g154618823108_cont_week2b_1163_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region: one transpose, then the call -/

/-- Core `c`'s buffers when the region is entered: the launch contents with the weight matrix's transpose written. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose writes none of the three arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place: an unfetched point has
    the block index of the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in the output window's buffer -/

/-- The whole adjacency block, the whole feature matrix, a whole 200 × 128 block, and the two halves of the
    transposed weight matrix (rows 0–127: own features; rows 128–255: neighbours). -/
abbrev rAdj : Rect S200x10000 := Rect.unit (s := S200x10000) ![0, 0] S200x10000.size inb_S200x10000_S200x10000_0_0
abbrev rFeat : Rect S10000x128 := Rect.unit (s := S10000x128) ![0, 0] S10000x128.size inb_S10000x128_S10000x128_0_0
abbrev rBlk : Rect S200x128 := Rect.unit (s := S200x128) ![0, 0] S200x128.size inb_S200x128_S200x128_0_0
abbrev rWLo : Rect S256x128 := Rect.unit (s := S256x128) ![0, 0] S128x128.size inb_S256x128_S128x128_0_0
abbrev rWHi : Rect S256x128 := Rect.unit (s := S256x128) ![128, 0] S128x128.size inb_S256x128_S128x128_128_0

/-- The output window's staging buffer after the body, from the four input blocks: its one store, of the
    skeleton's payload of the five loads. -/
def out0_4 (x0 : Vec F S200x10000 .f32) (x1 : Vec F S10000x128 .f32) (x2 : Vec F S200x128 .f32) (x3 : Vec F S256x128 .f32) : Vec F S200x128 .f32 :=
  View.canon [⟨rBlk, k0_pay1 (View.ld x0 rAdj) (View.ld x1 rFeat) (View.ld x2 rBlk) (View.ld x3 rWLo) (View.ld x3 rWHi)⟩]

/-- The one store covers the buffer. -/
theorem cover0_4 (p0 : Vec F S200x128 .f32) (y : S200x128.Idx) :
    ∃ pc ∈ ([⟨rBlk, p0⟩] : List (View.Piece (Elt F) S200x128 .f32)), y ∈ pc.1.set :=
  View.cover_of_tiled [⟨rBlk, p0⟩] S200x128.size (by rfl) y

/-! ## The body's triple -/

set_option maxHeartbeats 1000000 in
/-- The kernel body on whole staging memrefs, the inputs' at read contents `xW` and the output's at anything, runs
    to the continuation holding the inputs' as they were and the output's at `out0_4` of the inputs'. -/
theorem sound_kernel (c : Dev nD) (E : Set ℕ) (i : grid0.Coords)
    (arg1 : Memref sig .tc .vmem S200x10000 .f32) (harg1 : arg1.IsWhole) (arg2 : Memref sig .tc .vmem S10000x128 .f32) (harg2 : arg2.IsWhole)
    (arg3 : Memref sig .tc .vmem S200x128 .f32) (harg3 : arg3.IsWhole) (arg4 : Memref sig .tc .vmem S256x128 .f32) (harg4 : arg4.IsWhole)
    (arg5 : Memref sig .tc .vmem S200x128 .f32) (harg5 : arg5.IsWhole)
    (x0 : Vec F S200x10000 .f32) (x1 : Vec F S10000x128 .f32) (x2 : Vec F S200x128 .f32) (x3 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__sage_fused_kernel i arg1 harg1 arg2 harg2 arg3 harg3 arg4 harg4 arg5 harg5) K := by
  simp only [cc0__sage_fused_kernel_eq_skeleton]; unfold cc0__sage_fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them; after the body at point `t`
    each input's buffer at its block and the output's at `out0_4` of the input blocks; nothing kept between points
    beyond the buffers; nothing owed; the feature matrix's share dealt as its two halves to the two windows that
    read it, the full share of every other array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := iprop(emp)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The launch -/

omit [FloatOps F] in
/-- The distinct buffers behind the five windows' arrays, one by one: the adjacency matrix, the feature matrix
    (behind two windows), the transposed weights, the result. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)) := by
  unfold Pipeline.arrBufs
  exact bigSep_eq_bigSepL_of_eq [main_arg0, main_arg1, main_v0, main_v1] (by decide) (by decide) _

/-- How the launch's holdings of the buffers behind the windows' arrays, each whole at the full share, make the
    windows' arrays at their shares: the feature matrix is split along its share into the two halves windows 1 and
    2 hold; the adjacency matrix, the transposed weights and the result go to their one window whole. -/
theorem arrays_of_arrBufs (c : Dev nD) :
    (Pipeline.arrBufs spec0 c (V m c) : sProp 𝕄) ⊢ (dats m 0 c).arrays ((dats m 0 c).arrAt · 0) := by
  rw [arrBufs0_eq]
  unfold Dat.arrays
  rw [bigSep_W0]
  refine (show iprop((((c : Thread nD τ).loc main_arg0) ↦{fullShare} V m c main_arg0) ∗ (((c : Thread nD τ).loc main_arg1) ↦{fullShare} V m c main_arg1)
          ∗ (((c : Thread nD τ).loc main_v0) ↦{fullShare} V m c main_v0) ∗ (((c : Thread nD τ).loc main_v1) ↦{fullShare} V m c main_v1))
      ⊢ iprop((((c : Thread nD τ).loc main_arg0) ↦[(View.whole main_arg0).set]{fullShare} V m c main_arg0)
          ∗ (((c : Thread nD τ).loc main_arg1) ↦[(View.whole main_arg1).set]{fullShare.left} V m c main_arg1)
          ∗ (((c : Thread nD τ).loc main_arg1) ↦[(View.whole main_arg1).set]{fullShare.right} V m c main_arg1)
          ∗ (((c : Thread nD τ).loc main_v0) ↦[(View.whole main_v0).set]{fullShare} V m c main_v0)
          ∗ (((c : Thread nD τ).loc main_v1) ↦[(View.whole main_v1).set]{fullShare} V m c main_v1)) from ?_)
  simp only [View.set_whole]
  iintro ⟨H0, H1, H3, H4⟩
  ihave H12 := (pointsTo_share (PosShare.mem_left_op_right fullShare)).1 $$ H1
  icases H12 with ⟨H1a, H1b⟩
  isplitl [H0]; · iexact H0
  isplitl [H1a]; · iexact H1a
  isplitl [H1b]; · iexact H1b
  isplitl [H3]; · iexact H3
  iexact H4

/-- The launch element of the pipeline's ghost state: every staging cell's owner at round 0 and a duty token for
    every transfer the pipeline issues. -/
def u₀ : UR sig nD τ := initOf (Pipeline.cells cfgs cellOf_inj) (Pipeline.launchToks cfgs cellOf_inj)

set_option backward.isDefEq.respectTransparency.types false in
/-- From any memory with zero counters every weakly fair execution of @main terminates, and every final state has
    every windowed array at what the library computes from the proof data and every other unscoped buffer as the
    region found it. The kernel has no semaphore of its own and keeps nothing in scratch, so the region's
    invariant is empty; the one unscoped buffer no window stages (the weight matrix) goes round the region and is
    read back at the end. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := arrays_of_arrBufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr
      · iempintro
      · iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨fun w => (h c).1 w, (h c).2⟩)

/-- The frame claim's post: the three arguments end as launched — the adjacency and feature matrices are inputs
    of the pipeline, never written back; the weight matrix is staged by no window and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩) (run_main m ρ)

end Cert.KernelIdeal.Hand

end
-- ==== Proof.SageSpec.lean ====
/-
  The dense GraphSAGE layer, entry by entry, over the extended reals.

  For an adjacency matrix `adj` (n × n, n = 10000), node features `feat` (n × 128) and a weight matrix `w`
  (128 × 256, one row per output channel, its 256 columns the 128 own-feature weights followed by the 128
  neighbour weights), the layer's output at node `r` and channel `o` is

      Σ_j feat[r, j] · w[o, j]   +   Σ_j neigh[r, j] · w[o, 128 + j],

  where `neigh[r, j] = (Σ_k adj[r, k] · feat[k, j]) / (Σ_k adj[r, k] + 1)` is the degree-normalised sum of the
  neighbours' features. Sums are finite sums in the commutative monoid of the extended reals, the quotient is
  the extended reals' `Ideal.div`, and `1` is the value the f32 pattern of 1.0 denotes; nothing here needs the
  entries to be finite.
-/
import Idealize.ShloMosaic.PureOps.Ideal
import Idealize.ShloMosaic.Lib.ValueIdx

noncomputable section

open scoped BigOperators

namespace Cert.Sage

open Idealize.ShloMosaic Idealize.ShloMosaic.ValueIdx

/-- The adjacency matrix's shape, the feature (and output) matrix's, and the weight matrix's. -/
abbrev SAdj : Shape := ⟨2, ![10000, 10000]⟩
abbrev SFeat : Shape := ⟨2, ![10000, 128]⟩
abbrev SWt : Shape := ⟨2, ![128, 256]⟩

/-- The value of the f32 pattern of 1.0, kept as the pattern: both programs add the same word. -/
def one : EReal := Ideal.ofBits .f32 0x3F800000#32

/-- Column `j` of the weight matrix's first half (the own-feature weights) and of its second half (the
    neighbour weights). -/
def colLo (j : Fin 128) : Fin 256 := ⟨j.val, by have := j.isLt; omega⟩
def colHi (j : Fin 128) : Fin 256 := ⟨128 + j.val, by have := j.isLt; omega⟩

/-- Row `r`'s degree plus one: the normaliser. -/
def degree (adj : SAdj.Idx → EReal) (r : Fin 10000) : EReal :=
  (∑ k : Fin 10000, adj (ix2 r k)) + one

/-- The degree-normalised sum of the neighbours' features, at node `r` and feature `j`. -/
def neigh (adj : SAdj.Idx → EReal) (feat : SFeat.Idx → EReal) (r : Fin 10000) (j : Fin 128) : EReal :=
  Ideal.div (∑ k : Fin 10000, adj (ix2 r k) * feat (ix2 k j)) (degree adj r)

/-- The layer's output at node `r`, channel `o`. -/
def sageAt (adj : SAdj.Idx → EReal) (feat : SFeat.Idx → EReal) (w : SWt.Idx → EReal) (r : Fin 10000) (o : Fin 128) : EReal :=
  (∑ j : Fin 128, feat (ix2 r j) * w (ix2 o (colLo j))) + ∑ j : Fin 128, neigh adj feat r j * w (ix2 o (colHi j))

/-- The layer's output as one array. -/
def sage (adj : SAdj.Idx → EReal) (feat : SFeat.Idx → EReal) (w : SWt.Idx → EReal) : SFeat.Idx → EReal :=
  fun i => sageAt adj feat w (i 0) (i 1)

theorem sage_ix2 (adj : SAdj.Idx → EReal) (feat : SFeat.Idx → EReal) (w : SWt.Idx → EReal) (r : Fin 10000) (o : Fin 128) :
    sage adj feat w (ix2 r o) = sageAt adj feat w r o := rfl

end Cert.Sage

end
-- ==== Proof.IdealPayload.lean ====
/-
  The fused GraphSAGE body's one stored value, read at an entry of its 200 × 128 block, at the ideal instance.
-/
import proofs.«126180_g154618823108_cont_week2b_1163_4_alg».proof.Proof.Gen.KernelIdeal.Skeleton
import proofs.«126180_g154618823108_cont_week2b_1163_4_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandValue

open Cert.KernelIdeal Cert.KernelIdeal.Gen Idealize.ShloMosaic Idealize.ShloMosaic.ValueIdx

/-- The left operand's row coordinate of this product is the output's row. -/
theorem lhs_agg_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- The left operand's column coordinate is the contraction coordinate. -/
theorem lhs_agg_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
/-- The right operand's row coordinate is the contraction coordinate. -/
theorem rhs_agg_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
/-- The right operand's column coordinate is the output's column. -/
theorem rhs_agg_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The aggregation product into the zero block, at entry (p, j): the sum over the 10000 source nodes of the adjacency row's entry times the feature entry. -/
theorem matmul_agg_apply (x : FVec Ideal S200x10000 .f32) (y : FVec Ideal S10000x128 .f32) (p : Fin 200) (j : Fin 128) :
    matmul dot_S200x10000_S10000x128_S200x128_1_0_0_1_n_n none x y (constant (F := Ideal) S200x128 .f32 0x00000000#32) (ix2 p j)
      = ∑ k : Fin 10000, x (ix2 p k) * y (ix2 k j) := by
  simp only [matmul]
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx (ix2 p j) ((ValueIdx.contrEquiv1 dot_S200x10000_S10000x128_S200x128_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S200x10000_S10000x128_S200x128_1_0_0_1_n_n.rhsIdx (ix2 p j) ((ValueIdx.contrEquiv1 dot_S200x10000_S10000x128_S200x128_1_0_0_1_n_n 10000 rfl rfl).symm k) = ix2 k j := funext fun a => Fin.ext (by
    match a with
    | ⟨0, _⟩ => exact (rhs_agg_0 _ _).trans hk
    | ⟨1, _⟩ => exact rhs_agg_1 _ _)
  rw [el, er]

/-- The left operand's row coordinate of this product is the output's row. -/
theorem lhs_wt_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
/-- The left operand's column coordinate is the contraction coordinate. -/
theorem lhs_wt_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
/-- The right operand's row coordinate is the contraction coordinate. -/
theorem rhs_wt_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
/-- The right operand's column coordinate is the output's column. -/
theorem rhs_wt_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- A 200 × 128 block times a 128 × 128 weight block into the zero block, at entry (p, j): the sum over the 128 features of the block's entry times the weight. -/
theorem matmul_wt_apply (x : FVec Ideal S200x128 .f32) (y : FVec Ideal S128x128 .f32) (p : Fin 200) (j : Fin 128) :
    matmul dot_S200x128_S128x128_S200x128_1_0_0_1_n_n none x y (constant (F := Ideal) S200x128 .f32 0x00000000#32) (ix2 p j)
      = ∑ k : Fin 128, x (ix2 p k) * y (ix2 k j) := by
  simp only [matmul]
  rw [Ideal.matmul_constant_zero_apply, ← Equiv.sum_comp (ValueIdx.contrEquiv1 dot_S200x128_S128x128_S200x128_1_0_0_1_n_n 128 rfl rfl).symm]
  refine Finset.sum_congr rfl fun k _ => ?_
  have hk := ValueIdx.contrEquiv1_symm_val dot_S200x128_S128x128_S200x128_1_0_0_1_n_n 128 rfl rfl k
  have el : dot_S200x128_S128x128_S200x128_1_0_0_1_n_n.lhsIdx (ix2 p j) ((ValueIdx.contrEquiv1 dot_S200x128_S128x128_S200x128_1_0_0_1_n_n 128 rfl rfl).symm k) = ix2 p k := funext fun a => Fin.ext (by
    match a with
    | ⟨0, _⟩ => exact lhs_wt_0 _ _
    | ⟨1, _⟩ => exact (lhs_wt_1 _ _).trans hk)
  have er : dot_S200x128_S128x128_S200x128_1_0_0_1_n_n.rhsIdx (ix2 p j) ((ValueIdx.contrEquiv1 dot_S200x128_S128x128_S200x128_1_0_0_1_n_n 128 rfl rfl).symm k) = ix2 k j := funext fun a => Fin.ext (by
    match a with
    | ⟨0, _⟩ => exact (rhs_wt_0 _ _).trans hk
    | ⟨1, _⟩ => exact rhs_wt_1 _ _)
  rw [el, er]

section Layout
variable {α : Type}

/-- A length-`a` vector viewed as an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `a × 1` column broadcast over `b` columns reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-- The sum of the adjacency block along its rows, at row `p`: the sum of that row's 10000 entries. -/
theorem rowsum_apply (x : FVec Ideal S200x10000 .f32) (hφ : FKind.Formats .f32)
    (hacc : (0x00000000#32 : BitVec 32) = FKind.add.neutral .f32 hφ) (p : Fin 200) :
    multiReduction (F := Ideal) .add [1] S200 x 0x00000000#32 reduces_S200x10000_S200 hφ hacc (ix1 p)
      = ∑ k : Fin 10000, x (ix2 p k) := by
  refine (Ideal.multiReduction_add_single x 0x00000000#32 reduces_S200x10000_S200 hφ hacc (ix1 p)).trans ?_
  refine Finset.sum_congr rfl fun k _ => ?_
  exact congrArg x (funext fun a => Fin.ext (by match a with | ⟨0, _⟩ => rfl | ⟨1, _⟩ => rfl))

/-- Entry (p, q) of the stored block: the own-feature product plus the product of the degree-normalised
    neighbour sums with the neighbour weights. -/
theorem pay_apply (a : Vec Ideal S200x10000 .f32) (f : Vec Ideal S10000x128 .f32) (fb : Vec Ideal S200x128 .f32)
    (wlo whi : Vec Ideal S128x128 .f32) (p : Fin 200) (q : Fin 128) :
    k0_pay1 (F := Ideal) a f fb wlo whi (ix2 p q)
      = (∑ j : Fin 128, fb (ix2 p j) * wlo (ix2 j q))
        + ∑ j : Fin 128, Ideal.div (∑ k : Fin 10000, a (ix2 p k) * f (ix2 k j)) ((∑ k : Fin 10000, a (ix2 p k)) + Cert.Sage.one)
            * whi (ix2 j q) := by
  unfold k0_pay1
  rw [shapeCast_self, shapeCast_self]
  refine (addf_apply _ _ _).trans ?_
  refine congrArg₂ (· + ·) (matmul_wt_apply fb wlo p q) ?_
  refine (matmul_wt_apply _ whi p q).trans ?_
  refine Finset.sum_congr rfl fun j _ => ?_
  refine congrArg (· * whi (ix2 j q)) ?_
  refine (divf_apply _ _ _).trans ?_
  refine congrArg₂ Ideal.div (matmul_agg_apply a f p j) ?_
  refine (broadcastTo_a1_ab_apply _ broadcasts_S200x1_S200x128 p j).trans ?_
  refine (addf_apply _ _ _).trans ?_
  refine congrArg₂ (· + ·) ?_ ?_
  · refine (shapeCast_a_a1_apply _ shapeCasts_S200_S200x1 p 0).trans ?_
    exact rowsum_apply a _ _ p
  · show FloatOps.ofBits (F := Ideal) .f32 0x3F800000#32 = Cert.Sage.one
    unfold Cert.Sage.one
    rfl

end Cert.KernelIdeal.HandValue

end
-- ==== Proof.IdealValue.lean ====
/-
  From the blocks the fused GraphSAGE kernel writes back to the whole result array, at the ideal instance.

  The grid has 50 points. Point `t` owns rows `200 t … 200 t + 199` of the 10000 nodes: it stages those rows of the
  adjacency matrix (all 10000 columns), the whole feature matrix, the same 200 rows of the feature matrix once
  more, and the whole transposed weight matrix (256 × 128: row `k` of it is column `k` of the 128 × 256 weights),
  and it writes back rows `200 t … 200 t + 199` of the result. Entry `(p, q)` of the block it writes is

      Σ_j feat[200 t + p, j] · w[q, j]  +  Σ_j (Σ_k adj[200 t + p, k] · feat[k, j]) / (Σ_k adj[200 t + p, k] + 1) · w[q, 128 + j],

  which is the layer's output at node `200 t + p` and channel `q`: it depends on one row of the adjacency matrix, on
  that node's own feature row, on every node's features (through the neighbour sum) and on row `q` of the weights.
  The 50 row blocks are disjoint and tile the 10000 rows (row `r` lies in block `r / 200`), so once every point has
  written its block the result array is the layer's output everywhere.
-/
import proofs.«126180_g154618823108_cont_week2b_1163_4_alg».proof.Proof.IdealFrame
import proofs.«126180_g154618823108_cont_week2b_1163_4_alg».proof.Proof.IdealPayload
import proofs.«126180_g154618823108_cont_week2b_1163_4_alg».proof.Proof.SageSpec
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## Where each block sits in its array -/

/-- The offsets `(0, 0)` are the zero offsets. -/
theorem zeroOffsets : (![0, 0] : Fin 2 → Nat) = fun _ => 0 := funext fun a => by fin_cases a <;> rfl

/-- The block index of every window at every one of the 50 points: the adjacency rows, the feature rows and the
    result rows are block `(t, 0)`; the whole feature matrix and the whole transposed weights are block `(0, 0)`. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the adjacency block at point `t` is row `200 t + p` of the adjacency matrix as launched (an element of
    a block sits, on each axis, at block index × block size + its coordinate inside the block). -/
theorem adjBlock_apply (c : Dev nD) (t : Fin cfg0.N) (p : Fin 200) (k : Fin 10000) (r : Fin 10000)
    (hr : r.val = 200 * t.val + p.val) :
    (iblk m c 0 t : Vec Ideal S200x10000 .f32) (ix2 p k)
      = (m ((c : Thread nD τ).loc main_arg0) : S10000x10000.Idx → EReal) (ix2 r k) := by
  obtain ⟨e0, e1, -⟩ := blockIndex t
  rw [← V_main_arg0 m c]
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 200 + 1 * p.val = r.val; omega
  | ⟨1, _⟩ => show win0_0.index t (1 : Fin 2) * 10000 + 1 * k.val = k.val; omega

/-- The whole-matrix feature block is the feature matrix as launched, at every point. -/
theorem featWhole_apply (c : Dev nD) (t : Fin cfg0.N) (k : Fin 10000) (j : Fin 128) :
    (iblk m c 1 t : Vec Ideal S10000x128 .f32) (ix2 k j)
      = (m ((c : Thread nD τ).loc main_arg1) : S10000x128.Idx → EReal) (ix2 k j) := by
  obtain ⟨-, -, e0, e1, -⟩ := blockIndex t
  rw [← V_main_arg1 m c]
  show V m c main_arg1 (((cfg0.win 1).blk t).view.emb (ix2 k j)) = V m c main_arg1 (ix2 k j)
  refine congrArg _ (funext fun a => Fin.ext ?_)
  match a with
  | ⟨0, _⟩ => show win0_1.index t (0 : Fin 2) * 10000 + 1 * k.val = k.val; omega
  | ⟨1, _⟩ => show win0_1.index t (1 : Fin 2) * 128 + 1 * j.val = j.val; omega

/-- Row `p` of the 200-row feature block at point `t` is row `200 t + p` of the feature matrix as launched. -/
theorem featBlock_apply (c : Dev nD) (t : Fin cfg0.N) (p : Fin 200) (j : Fin 128) (r : Fin 10000)
    (hr : r.val = 200 * t.val + p.val) :
    (iblk m c 2 t : Vec Ideal S200x128 .f32) (ix2 p j)
      = (m ((c : Thread nD τ).loc main_arg1) : S10000x128.Idx → EReal) (ix2 r j) := by
  obtain ⟨-, -, -, -, e0, e1, -⟩ := blockIndex t
  rw [← V_main_arg1 m c]
  show V m c main_arg1 (((cfg0.win 2).blk t).view.emb (ix2 p j)) = V m c main_arg1 (ix2 r j)
  refine congrArg _ (funext fun a => Fin.ext ?_)
  match a with
  | ⟨0, _⟩ => show win0_2.index t (0 : Fin 2) * 200 + 1 * p.val = r.val; omega
  | ⟨1, _⟩ => show win0_2.index t (1 : Fin 2) * 128 + 1 * j.val = j.val; omega

/-! ## The transposed weights -/

/-- What the kernel finds in the transposed-weight array: entry `(k, o)` is entry `(o, k)` of the weights as
    launched (the one operation before the kernel writes the transpose there). -/
theorem transposedWeights_apply (c : Dev nD) (k : Fin 256) (o : Fin 128) :
    (V m c main_v0 : S256x128.Idx → EReal) (ix2 k o)
      = (m ((c : Thread nD τ).loc main_arg2) : S128x256.Idx → EReal) (ix2 o k) := by
  have e : (V m c main_v0 : S256x128.Idx → EReal)
      = transpose S256x128 [1, 0] (m ((c : Thread nD τ).loc main_arg2)) transposes_S128x256_S256x128_1_0 := by
    dsimp only [V, hostOps0]; after_results
  rw [e]
  refine transpose_apply _ _ _ (ix2 k o) (ix2 o k) fun b => ?_
  match b with
  | ⟨0, _⟩ => rfl
  | ⟨1, _⟩ => rfl

/-- The staged weight block is the whole transposed array at every point: entry `(k, o)` of it is `w[o, k]`. -/
theorem weightBlock_apply (c : Dev nD) (t : Fin cfg0.N) (k : Fin 256) (o : Fin 128) :
    (iblk m c 3 t : Vec Ideal S256x128 .f32) (ix2 k o)
      = (m ((c : Thread nD τ).loc main_arg2) : S128x256.Idx → EReal) (ix2 o k) := by
  obtain ⟨-, -, -, -, -, -, e0, e1, -⟩ := blockIndex t
  rw [← transposedWeights_apply m c k o]
  show V m c main_v0 (((cfg0.win 3).blk t).view.emb (ix2 k o)) = V m c main_v0 (ix2 k o)
  refine congrArg _ (funext fun a => Fin.ext ?_)
  match a with
  | ⟨0, _⟩ => show win0_3.index t (0 : Fin 2) * 256 + 1 * k.val = k.val; omega
  | ⟨1, _⟩ => show win0_3.index t (1 : Fin 2) * 128 + 1 * o.val = o.val; omega

/-- The body's load of rows 0–127 of the transposed weights: its row `j` is row `j` of the array, the weights'
    own-feature column `j`. -/
theorem ld_lowHalf (x : Vec Ideal S256x128 .f32) (j q : Fin 128) :
    View.ld x rWLo (ix2 j q) = x (ix2 (Cert.Sage.colLo j) q) := by
  show x (rWLo.idx (ix2 j q)) = x (ix2 (Cert.Sage.colLo j) q)
  refine congrArg _ (funext fun a => Fin.ext ?_)
  match a with
  | ⟨0, _⟩ => show 0 + 1 * j.val = j.val; omega
  | ⟨1, _⟩ => show 0 + 1 * q.val = q.val; omega

/-- The body's load of rows 128–255: its row `j` is row `128 + j` of the array, the weights' neighbour column `j`. -/
theorem ld_highHalf (x : Vec Ideal S256x128 .f32) (j q : Fin 128) :
    View.ld x rWHi (ix2 j q) = x (ix2 (Cert.Sage.colHi j) q) := by
  show x (rWHi.idx (ix2 j q)) = x (ix2 (Cert.Sage.colHi j) q)
  refine congrArg _ (funext fun a => Fin.ext ?_)
  match a with
  | ⟨0, _⟩ => show 128 + 1 * j.val = 128 + j.val; omega
  | ⟨1, _⟩ => show 0 + 1 * q.val = q.val; omega

/-! ## One entry of a block -/

/-- If row `p` of the adjacency block is row `r` of `adj`, the feature block's row `p` is row `r` of `feat`, the whole
    feature block is `feat`, and column `q` of the two weight halves is row `q` of `w` (own-feature columns, then
    neighbour columns), then entry `(p, q)` of the stored block is the layer's output at node `r`, channel `q`. -/
theorem entry_eq_sageAt (adj : Cert.Sage.SAdj.Idx → EReal) (feat : Cert.Sage.SFeat.Idx → EReal)
    (w : Cert.Sage.SWt.Idx → EReal)
    (a : Vec Ideal S200x10000 .f32) (f : Vec Ideal S10000x128 .f32) (fb : Vec Ideal S200x128 .f32)
    (wlo whi : Vec Ideal S128x128 .f32) (r : Fin 10000) (p : Fin 200) (q : Fin 128)
    (ha : ∀ k, a (ix2 p k) = adj (ix2 r k)) (hf : ∀ k j, f (ix2 k j) = feat (ix2 k j))
    (hfb : ∀ j, fb (ix2 p j) = feat (ix2 r j))
    (hlo : ∀ j, wlo (ix2 j q) = w (ix2 q (Cert.Sage.colLo j)))
    (hhi : ∀ j, whi (ix2 j q) = w (ix2 q (Cert.Sage.colHi j))) :
    k0_pay1 (F := Ideal) a f fb wlo whi (ix2 p q) = Cert.Sage.sageAt adj feat w r q := by
  rw [pay_apply]
  simp only [ha, hf, hfb, hlo, hhi]
  rfl

/-! ## What a point writes back, and the whole array -/

/-- What point `t` writes back is rows `200 t … 200 t + 199` of the layer's output of the three arguments as
    launched. -/
theorem flushed_eq (c : Dev nD) (t : Fin cfg0.N) :
    (dats m 0 c).flushed 4 t
      = ((cfg0.win 4).blk t).view.read (Elt Ideal)
          (Cert.Sage.sage (m ((c : Thread nD τ).loc main_arg0)) (m ((c : Thread nD τ).loc main_arg1))
            (m ((c : Thread nD τ).loc main_arg2))) := by
  show (cfg0.win 4).cut (grid0.coords t) ((dats m 0 c).after 4 t) = _
  rw [after0_4]
  unfold out0_4
  rw [View.canon_unit_zero zeroOffsets]
  simp only [View.ld_unit_zero (S := S200x10000) zeroOffsets, View.ld_unit_zero (S := S10000x128) zeroOffsets,
    View.ld_unit_zero (S := S200x128) zeroOffsets]
  obtain ⟨-, -, -, -, -, -, -, -, e0, e1⟩ := blockIndex t
  have hN : cfg0.N = 50 := N_0
  have ht : t.val < 50 := hN ▸ t.isLt
  refine funext fun (y : S200x128.Idx) => ?_
  obtain ⟨p, q, rfl⟩ : ∃ (p : Fin 200) (q : Fin 128), y = ix2 p q := ⟨y 0, y 1, eq_ix2 y⟩
  have hr : 200 * t.val + p.val < 10000 := by have := p.isLt; omega
  -- entry (p, q) of the block sits at row 200 t + p, column q of the result
  have hemb : ((cfg0.win 4).blk t).view.emb (ix2 p q) = ix2 (⟨200 * t.val + p.val, hr⟩ : Fin 10000) q := by
    funext a; apply Fin.ext
    match a with
    | ⟨0, _⟩ => show win0_4.index t (0 : Fin 2) * 200 + 1 * p.val = 200 * t.val + p.val; omega
    | ⟨1, _⟩ => show win0_4.index t (1 : Fin 2) * 128 + 1 * q.val = q.val; omega
  show k0_pay1 (F := Ideal) (iblk m c 0 t) (iblk m c 1 t) (iblk m c 2 t) (View.ld (iblk m c 3 t) rWLo)
      (View.ld (iblk m c 3 t) rWHi) (ix2 p q)
    = Cert.Sage.sage (m ((c : Thread nD τ).loc main_arg0)) (m ((c : Thread nD τ).loc main_arg1))
        (m ((c : Thread nD τ).loc main_arg2)) (((cfg0.win 4).blk t).view.emb (ix2 p q))
  rw [hemb, Cert.Sage.sage_ix2]
  refine entry_eq_sageAt (m ((c : Thread nD τ).loc main_arg0)) (m ((c : Thread nD τ).loc main_arg1))
    (m ((c : Thread nD τ).loc main_arg2)) (iblk m c 0 t) (iblk m c 1 t) (iblk m c 2 t) (View.ld (iblk m c 3 t) rWLo)
    (View.ld (iblk m c 3 t) rWHi) ⟨200 * t.val + p.val, hr⟩ p q ?_ ?_ ?_ ?_ ?_
  · intro k; exact adjBlock_apply m c t p k _ rfl
  · intro k j; exact featWhole_apply m c t k j
  · intro j; exact featBlock_apply m c t p j _ rfl
  · intro j; exact (ld_lowHalf (iblk m c 3 t) j q).trans (weightBlock_apply m c t (Cert.Sage.colLo j) q)
  · intro j; exact (ld_highHalf (iblk m c 3 t) j q).trans (weightBlock_apply m c t (Cert.Sage.colHi j) q)

/-- An index of the result is in point `t`'s block iff each coordinate is in the block's range on its axis. -/
theorem mem_resultBlock (t : Fin cfg0.N) (i : S10000x128.Idx) :
    i ∈ ((cfg0.win 4).blk t).view.set
      ↔ ∀ a : Fin 2, win0_4.index t a * S200x128.size a ≤ (i a).val
          ∧ (i a).val < win0_4.index t a * S200x128.size a + S200x128.size a := by
  show i ∈ ((View.whole main_v1).slice (win0_4.rect t)).set ↔ _
  rw [View.set_slice_whole, Rect.mem_set_unit]
  exact Iff.rfl

/-- Every entry of the result is in some point's block: row `r` is in the block of point `r / 200`, and every
    point writes its block back. -/
theorem resultBlocks_cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 50 := N_0
  obtain ⟨t, ht⟩ : ∃ t : Fin cfg0.N, t.val = (i 0).val / 200 := ⟨⟨(i 0).val / 200, by rw [hN]; omega⟩, rfl⟩
  obtain ⟨-, -, -, -, -, -, -, -, e0, e1⟩ := blockIndex t
  refine ⟨t, flush0_4 t, ?_⟩
  rw [mem_resultBlock]
  intro a
  match a with
  | ⟨0, _⟩ =>
    show win0_4.index t (0 : Fin 2) * 200 ≤ (i 0).val ∧ (i 0).val < win0_4.index t (0 : Fin 2) * 200 + 200
    omega
  | ⟨1, _⟩ =>
    show win0_4.index t (1 : Fin 2) * 128 ≤ (i 1).val ∧ (i 1).val < win0_4.index t (1 : Fin 2) * 128 + 128
    omega

/-- The result array after the run is the layer's output of the three arguments as launched. -/
theorem final4 (c : Dev nD) :
    (dats m 0 c).arrAt 4 cfg0.N
      = Cert.Sage.sage (m ((c : Thread nD τ).loc main_arg0)) (m ((c : Thread nD τ).loc main_arg1)) (m ((c : Thread nD τ).loc main_arg2)) :=
  (dats m 0 c).arrAt_eq_of_cover 4 _ (fun t _ => flushed_eq m c t) resultBlocks_cover

end Cert.KernelIdeal.HandValue

end
-- ==== Proof.RefValue.lean ====
/-
  The reference program, run over the extended reals, computes the dense GraphSAGE layer.

  The program is twelve host operations. Read entry by entry they are:
    * the product of the adjacency matrix with the features, `Σ_k adj[r, k] · feat[k, j]`;
    * the row sums of the adjacency matrix, started from the zero word (which denotes `0`, so it drops out),
      turned into a column, with the word of 1.0 added, and repeated across the 128 feature columns: the
      normaliser `Σ_k adj[r, k] + 1`;
    * the quotient of the two: the degree-normalised neighbour features;
    * the features and that quotient laid side by side, 256 columns;
    * the weight matrix transposed; and the product of the last two, `Σ_{k < 256} side[r, k] · w[o, k]`.
  A sum over 256 columns is the sum over the first 128 plus the sum over the last 128 (finite sums in a
  commutative monoid split along `Fin (128 + 128)`); on the first half the side-by-side array is the features,
  on the second it is the quotient. That is the specification's formula, term by term. No entry has to be finite.
-/
import proofs.«126180_g154618823108_cont_week2b_1163_4_alg».proof.Proof.Gen.ReferenceIdeal.Read
import proofs.«126180_g154618823108_cont_week2b_1163_4_alg».proof.Proof.SageSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

variable (adj : (⟨S10000x10000, .f32⟩ : BufTy).Contents (Elt Ideal))
  (feat : (⟨S10000x128, .f32⟩ : BufTy).Contents (Elt Ideal))
  (w : (⟨S128x256, .f32⟩ : BufTy).Contents (Elt Ideal))

/-- The first product at row `r`, column `j`: the sum over the neighbours `k` of `adj[r, k] · feat[k, j]`. -/
theorem aggregate_at (r : Fin 10000) (j : Fin 128) :
    val_main_v0 (F := Ideal) adj feat (ix2 r j) = ∑ k : Fin 10000, adj (ix2 r k) * feat (ix2 k j) := by
  rw [val_main_v0_apply]
  refine Finset.sum_congr rfl fun k _ => ?_
  have el : lidx_main_v0 (ix2 r j) k = ix2 r k :=
    funext fun a => Fin.ext (by match a with | ⟨0, _⟩ => rfl | ⟨1, _⟩ => rfl)
  have er : ridx_main_v0 (ix2 r j) k = ix2 k j :=
    funext fun a => Fin.ext (by match a with | ⟨0, _⟩ => rfl | ⟨1, _⟩ => rfl)
  rw [el, er]

/-- Row `r`'s sum of the adjacency matrix: the sum starts from the zero word, which denotes `0`. -/
theorem rowsum_at (r : Fin 10000) :
    val_main_v1 (F := Ideal) adj (ix1 r) = ∑ k : Fin 10000, adj (ix2 r k) := by
  rw [val_main_v1_apply, val_main_cst_apply, Ideal.ofBits_def, Ideal.ofBits_zero_f32, zero_add]
  refine Finset.sum_congr rfl fun k _ => congrArg adj (funext fun a => Fin.ext (by
    match a with | ⟨0, _⟩ => rfl | ⟨1, _⟩ => rfl))

/-- The normaliser, whatever the column: row `r`'s sum plus the value of the word of 1.0. -/
theorem degree_at (r : Fin 10000) (j : Fin 128) :
    val_main_v5 (F := Ideal) adj (ix2 r j) = Cert.Sage.degree adj r := by
  rw [val_main_v5_apply, val_main_v4_apply, val_main_v2_apply, val_main_v3_apply, val_main_cst_0_apply,
    Ideal.addf_def, Ideal.ofBits_def]
  have e : idx_main_v2 (idx_main_v5 (ix2 r j)) = ix1 r :=
    funext fun a => Fin.ext (by match a with | ⟨0, _⟩ => exact (show r.val * 1 + 0 = r.val by omega))
  rw [e, rowsum_at]
  rfl

/-- The quotient at row `r`, column `j` is the specification's normalised neighbour feature. -/
theorem neigh_at (r : Fin 10000) (j : Fin 128) :
    val_main_v6 (F := Ideal) adj feat (ix2 r j) = Cert.Sage.neigh adj feat r j := by
  rw [val_main_v6_apply, Ideal.hostDivf_def, aggregate_at, degree_at]
  rfl

/-- In its first 128 columns the side-by-side array is the features. -/
theorem side_lo (r : Fin 10000) (j : Fin 128) :
    val_main_v7 (F := Ideal) adj feat (ix2 r (Cert.Sage.colLo j)) = feat (ix2 r j) := by
  unfold val_main_v7
  exact concatenate_pair_apply_left (t := S10000x256) (s₁ := S10000x128) (s₂ := S10000x128) 1 _ _
    concatenates_S10000x128_S10000x128_S10000x256_d1 _ rfl (ix2 r j) (fun b => by
      match b with
      | ⟨0, _⟩ => rfl
      | ⟨1, _⟩ => rfl)

/-- In its last 128 columns it is the quotient, read 128 columns to the left. -/
theorem side_hi (r : Fin 10000) (j : Fin 128) :
    val_main_v7 (F := Ideal) adj feat (ix2 r (Cert.Sage.colHi j)) = Cert.Sage.neigh adj feat r j := by
  rw [← neigh_at]
  unfold val_main_v7
  exact concatenate_pair_apply_right (t := S10000x256) (s₁ := S10000x128) (s₂ := S10000x128) 1 _ _
    concatenates_S10000x128_S10000x128_S10000x256_d1 _ rfl rfl (ix2 r j)
    (fun b hb => by
      match b with
      | ⟨0, _⟩ => rfl
      | ⟨1, _⟩ => exact absurd rfl hb)
    (show j.val + 128 = 128 + j.val by omega)

/-- The transposed weights at `(k, o)` are the weights at `(o, k)`. -/
theorem weight_at (k : Fin 256) (o : Fin 128) :
    val_main_v8 (F := Ideal) w (ix2 k o) = w (ix2 o k) := by
  rw [val_main_v8_apply]
  exact congrArg w (funext fun a => Fin.ext (by match a with | ⟨0, _⟩ => rfl | ⟨1, _⟩ => rfl))

/-- A sum over 256 columns is the sum over the first 128 plus the sum over the last 128. -/
theorem sum_halves {M : Type} [AddCommMonoid M] (g : Fin 256 → M) :
    ∑ k : Fin 256, g k = (∑ j : Fin 128, g (Cert.Sage.colLo j)) + ∑ j : Fin 128, g (Cert.Sage.colHi j) :=
  Fin.sum_univ_add (a := 128) (b := 128) g

/-- The reference's result is the layer: the last product's 256 terms are the specification's two sums. -/
theorem ref_eq : val_main_v9 (F := Ideal) adj feat w = Cert.Sage.sage adj feat w := by
  funext i
  obtain ⟨r, o, rfl⟩ : ∃ (r : Fin 10000) (o : Fin 128), i = ix2 r o := ⟨i 0, i 1, eq_ix2 i⟩
  rw [val_main_v9_apply, Cert.Sage.sage_ix2]
  have hterm : ∀ k : Fin 256,
      val_main_v7 (F := Ideal) adj feat (lidx_main_v9 (ix2 r o) k) * val_main_v8 (F := Ideal) w (ridx_main_v9 (ix2 r o) k)
        = val_main_v7 (F := Ideal) adj feat (ix2 r k) * w (ix2 o k) := fun k => by
    have el : lidx_main_v9 (ix2 r o) k = ix2 r k :=
      funext fun a => Fin.ext (by match a with | ⟨0, _⟩ => rfl | ⟨1, _⟩ => rfl)
    have er : ridx_main_v9 (ix2 r o) k = ix2 k o :=
      funext fun a => Fin.ext (by match a with | ⟨0, _⟩ => rfl | ⟨1, _⟩ => rfl)
    rw [el, er, weight_at]
  rw [Finset.sum_congr rfl fun k _ => hterm k, sum_halves]
  unfold Cert.Sage.sageAt
  refine congrArg₂ (· + ·) (Finset.sum_congr rfl fun j _ => ?_) (Finset.sum_congr rfl fun j _ => ?_)
  · rw [side_lo]
  · rw [side_hi]

end Cert.ReferenceIdeal.RefValue

end
-- ==== Proof.lean ====
/-
  The fused GraphSAGE kernel against its jnp reference, over the extended reals.

  Both programs compute, for an adjacency matrix `adj` (10000 × 10000), features `feat` (10000 × 128) and
  weights `w` (128 × 256), the array

      out[r, o] = Σ_j feat[r, j] · w[o, j]  +  Σ_j neigh[r, j] · w[o, 128 + j],
      neigh[r, j] = (Σ_k adj[r, k] · feat[k, j]) / (Σ_k adj[r, k] + 1)

  (Proof/SageSpec.lean). The kernel does it 200 rows at a time: one pass over a row block of `adj` gives both the
  product with the features and the row sums, the quotient is taken on the block, and the two halves of the
  transposed weight matrix are applied to the block's own features and to the quotient and added. The reference
  forms the whole product and the whole column of row sums, lays the features and the quotient side by side and
  multiplies once by the transposed weights. The two differ by how a sum of 256 products is grouped (128 + 128)
  and by the tiling; addition on the extended reals is commutative and associative, so the precondition is
  never opened.

  The frames: the kernel's (at both instances) is the pipeline's run with the feature matrix, which two input
  windows read, dealt to them by halves of its share (Proof/IdealFrame.lean, Proof/BitsFrame.lean); the
  reference's is its run of twelve host operations with the result dropped. The idealization rewrote nothing,
  so `preserves` asks nothing.
-/
import proofs.«126180_g154618823108_cont_week2b_1163_4_alg».proof.Defs
import proofs.«126180_g154618823108_cont_week2b_1163_4_alg».proof.Proof.Gen.Kernel
import proofs.«126180_g154618823108_cont_week2b_1163_4_alg».proof.Proof.Gen.KernelIdeal
import proofs.«126180_g154618823108_cont_week2b_1163_4_alg».proof.Proof.Gen.ReferenceIdeal
import proofs.«126180_g154618823108_cont_week2b_1163_4_alg».proof.Proof.Gen.Pre_finite_inputs
import proofs.«126180_g154618823108_cont_week2b_1163_4_alg».proof.Proof.Gen.ReferenceIdeal.Run
import proofs.«126180_g154618823108_cont_week2b_1163_4_alg».proof.Proof.Gen.ReferenceIdeal.Read
import proofs.«126180_g154618823108_cont_week2b_1163_4_alg».proof.Proof.BitsFrame
import proofs.«126180_g154618823108_cont_week2b_1163_4_alg».proof.Proof.IdealFrame
import proofs.«126180_g154618823108_cont_week2b_1163_4_alg».proof.Proof.IdealValue
import proofs.«126180_g154618823108_cont_week2b_1163_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its three arguments as launched. -/
theorem frame_kernel : Cert.frame_Kernel := fun m ρ _ => Cert.Kernel.Hand.frame m ρ

/-- So does the kernel read over the extended reals. -/
theorem frame_kernelIdeal : Cert.frame_KernelIdeal := fun m ρ _ => Cert.KernelIdeal.Hand.frame m ρ

/-- The reference is twelve host operations: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's run ends with the result array at the layer's output of the launched
    arguments, and the arguments unchanged: the pipeline's run, its result array read block by block. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1)
            = Cert.Sage.sage (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r h c =>
      ⟨((h c).1 4).trans (Cert.KernelIdeal.HandValue.final4 m c),
        ((h c).1 0).trans (((Cert.KernelIdeal.Hand.dats m 0 c).arrAt_in 0 rfl _).trans
          ((Cert.KernelIdeal.Hand.A_eq m c 0).trans (Cert.KernelIdeal.Hand.V_main_arg0 m c))),
        ((h c).1 1).trans (((Cert.KernelIdeal.Hand.dats m 0 c).arrAt_in 1 rfl _).trans
          ((Cert.KernelIdeal.Hand.A_eq m c 1).trans (Cert.KernelIdeal.Hand.V_main_arg1 m c))),
        ((h c).2 Cert.KernelIdeal.main_arg2 (Pipeline.mem_restRefs_of Cert.KernelIdeal.main_arg2 (by decide) (by decide))).trans
          (Cert.KernelIdeal.Hand.V_main_arg2 m c)⟩)
    (Cert.KernelIdeal.Hand.run_main m ρ)

/-- The idealization rewrote no operation. -/
theorem preserves : Cert.preserves_Kernel_KernelIdeal := trivial

/-- From memories agreeing on the arguments, both programs end with the layer's output of those arguments: the
    kernel by `kernel_run`, the reference by its run read as the specification. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq _ _ _).trans ((Cert.ReferenceIdeal.RefValue.ref_eq _ _ _).trans ?_)
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
